-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2000x26 : Shape := ⟨3, ![64, 2000, 26]⟩
abbrev S_ : Shape := ⟨0, ![]⟩

class Facts : Prop where
  bcast_S_S64x2000x26 : S_.BroadcastsInDim S64x2000x26 (![] : Fin 0 → Fin S64x2000x26.rank)
  reducesTo_S64x2000x26_S_d0_1_2 : S64x2000x26.ReducesTo [0, 1, 2] S_
  h_S_ : 0 < S_.numel

variable [Facts]

def fn {F : FTy → Type} [FloatOps F] (main_arg0 : FVec F S64x2000x26 .f32) : IVec S_ 1 :=
  let main_v0 : FVec F S64x2000x26 .f32 := Host.absf main_arg0
  let main_cst : FVec F S_ .f32 := constant S_ .f32 0x7F800000#32
  let main_v1 : FVec F S64x2000x26 .f32 := broadcastInDim S64x2000x26 ![] bcast_S_S64x2000x26 main_cst
  let main_v2 : IVec S64x2000x26 1 := cmpf .olt main_v0 main_v1
  let main_c : IVec S_ 1 := constantI S_ 1 1#1
  let main_v3 : IVec S_ 1 := (fun x v => Host.reduce IntOp.andi x v reducesTo_S64x2000x26_S_d0_1_2 h_S_) main_v2 main_c
  main_v3
-- ==== Kernel.lean ====
abbrev S64x2000x26 : Shape := ⟨3, ![64, 2000, 26]⟩
abbrev S_ : Shape := ⟨0, ![]⟩
abbrev S64x2018x26 : Shape := ⟨3, ![64, 2018, 26]⟩
abbrev S64x2000x494 : Shape := ⟨3, ![64, 2000, 494]⟩
abbrev S2x2018x26 : Shape := ⟨3, ![2, 2018, 26]⟩
abbrev S2x2000x494 : Shape := ⟨3, ![2, 2000, 494]⟩
abbrev S2x2000x26 : Shape := ⟨3, ![2, 2000, 26]⟩

abbrev nBuf : Space → Nat
  | .hbm => 5
  | .vmem => 4
  | .smem => 0
  | _ => 0

abbrev bufTy : (tb : Table) → Fin (tcTables nBuf tb) → BufTy
  | .hbm, ⟨0, _⟩ => ⟨S64x2000x26, .f32⟩
  | .hbm, ⟨1, _⟩ => ⟨S_, .i32⟩
  | .hbm, ⟨2, _⟩ => ⟨S_, .f32⟩
  | .hbm, ⟨3, _⟩ => ⟨S64x2018x26, .f32⟩
  | .hbm, ⟨4, _⟩ => ⟨S64x2000x494, .f32⟩
  | .local _ .vmem, ⟨0, _⟩ => ⟨S2x2018x26, .f32⟩
  | .local _ .vmem, ⟨1, _⟩ => ⟨S2x2018x26, .f32⟩
  | .local _ .vmem, ⟨2, _⟩ => ⟨S2x2000x494, .f32⟩
  | .local _ .vmem, ⟨3, _⟩ => ⟨S2x2000x494, .f32⟩
  | _, _ => ⟨S64x2000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2018x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2000x494 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S64x2000x26_S64x2018x26_000_990_000 : S64x2000x26.Pads (![0, 9, 0] : Fin 3 → Nat) ![0, 9, 0] ![0, 0, 0] S64x2018x26
  h_S_ : 0 < S_.numel
  inb_S2x2018x26_S2x2000x26_0_0_0 : ∀ a, (![0, 0, 0] : Fin 3 → Nat) a + S2x2000x26.size a ≤ S2x2018x26.size a
  h_S2x2000x26 : 0 < S2x2000x26.numel
  shapeCasts_S2x2000x26_S2x2000x26 : S2x2000x26.ShapeCasts S2x2000x26
  inb_S2x2000x494_S2x2000x26_0_0_0 : ∀ a, (![0, 0, 0] : Fin 3 → Nat) a + S2x2000x26.size a ≤ S2x2000x494.size a
  inb_S2x2018x26_S2x2000x26_0_1_0 : ∀ a, (![0, 1, 0] : Fin 3 → Nat) a + S2x2000x26.size a ≤ S2x2018x26.size a
  inb_S2x2000x494_S2x2000x26_0_0_26 : ∀ a, (![0, 0, 26] : Fin 3 → Nat) a + S2x2000x26.size a ≤ S2x2000x494.size a
  inb_S2x2018x26_S2x2000x26_0_2_0 : ∀ a, (![0, 2, 0] : Fin 3 → Nat) a + S2x2000x26.size a ≤ S2x2018x26.size a
  inb_S2x2000x494_S2x2000x26_0_0_52 : ∀ a, (![0, 0, 52] : Fin 3 → Nat) a + S2x2000x26.size a ≤ S2x2000x494.size a
  inb_S2x2018x26_S2x2000x26_0_3_0 : ∀ a, (![0, 3, 0] : Fin 3 → Nat) a + S2x2000x26.size a ≤ S2x2018x26.size a
  inb_S2x2000x494_S2x2000x26_0_0_78 : ∀ a, (![0, 0, 78] : Fin 3 → Nat) a + S2x2000x26.size a ≤ S2x2000x494.size a
  inb_S2x2018x26_S2x2000x26_0_4_0 : ∀ a, (![0, 4, 0] : Fin 3 → Nat) a + S2x2000x26.size a ≤ S2x2018x26.size a
  inb_S2x2000x494_S2x2000x26_0_0_104 : ∀ a, (![0, 0, 104] : Fin 3 → Nat) a + S2x2000x26.size a ≤ S2x2000x494.size a
  inb_S2x2018x26_S2x2000x26_0_5_0 : ∀ a, (![0, 5, 0] : Fin 3 → Nat) a + S2x2000x26.size a ≤ S2x2018x26.size a
  inb_S2x2000x494_S2x2000x26_0_0_130 : ∀ a, (![0, 0, 130] : Fin 3 → Nat) a + S2x2000x26.size a ≤ S2x2000x494.size a
  inb_S2x2018x26_S2x2000x26_0_6_0 : ∀ a, (![0, 6, 0] : Fin 3 → Nat) a + S2x2000x26.size a ≤ S2x2018x26.size a
  inb_S2x2000x494_S2x2000x26_0_0_156 : ∀ a, (![0, 0, 156] : Fin 3 → Nat) a + S2x2000x26.size a ≤ S2x2000x494.size a
  inb_S2x2018x26_S2x2000x26_0_7_0 : ∀ a, (![0, 7, 0] : Fin 3 → Nat) a + S2x2000x26.size a ≤ S2x2018x26.size a
  inb_S2x2000x494_S2x2000x26_0_0_182 : ∀ a, (![0, 0, 182] : Fin 3 → Nat) a + S2x2000x26.size a ≤ S2x2000x494.size a
  inb_S2x2018x26_S2x2000x26_0_8_0 : ∀ a, (![0, 8, 0] : Fin 3 → Nat) a + S2x2000x26.size a ≤ S2x2018x26.size a
  inb_S2x2000x494_S2x2000x26_0_0_208 : ∀ a, (![0, 0, 208] : Fin 3 → Nat) a + S2x2000x26.size a ≤ S2x2000x494.size a
  inb_S2x2018x26_S2x2000x26_0_9_0 : ∀ a, (![0, 9, 0] : Fin 3 → Nat) a + S2x2000x26.size a ≤ S2x2018x26.size a
  inb_S2x2000x494_S2x2000x26_0_0_234 : ∀ a, (![0, 0, 234] : Fin 3 → Nat) a + S2x2000x26.size a ≤ S2x2000x494.size a
  inb_S2x2018x26_S2x2000x26_0_10_0 : ∀ a, (![0, 10, 0] : Fin 3 → Nat) a + S2x2000x26.size a ≤ S2x2018x26.size a
  inb_S2x2000x494_S2x2000x26_0_0_260 : ∀ a, (![0, 0, 260] : Fin 3 → Nat) a + S2x2000x26.size a ≤ S2x2000x494.size a
  inb_S2x2018x26_S2x2000x26_0_11_0 : ∀ a, (![0, 11, 0] : Fin 3 → Nat) a + S2x2000x26.size a ≤ S2x2018x26.size a
  inb_S2x2000x494_S2x2000x26_0_0_286 : ∀ a, (![0, 0, 286] : Fin 3 → Nat) a + S2x2000x26.size a ≤ S2x2000x494.size a
  inb_S2x2018x26_S2x2000x26_0_12_0 : ∀ a, (![0, 12, 0] : Fin 3 → Nat) a + S2x2000x26.size a ≤ S2x2018x26.size a
  inb_S2x2000x494_S2x2000x26_0_0_312 : ∀ a, (![0, 0, 312] : Fin 3 → Nat) a + S2x2000x26.size a ≤ S2x2000x494.size a
  inb_S2x2018x26_S2x2000x26_0_13_0 : ∀ a, (![0, 13, 0] : Fin 3 → Nat) a + S2x2000x26.size a ≤ S2x2018x26.size a
  inb_S2x2000x494_S2x2000x26_0_0_338 : ∀ a, (![0, 0, 338] : Fin 3 → Nat) a + S2x2000x26.size a ≤ S2x2000x494.size a
  inb_S2x2018x26_S2x2000x26_0_14_0 : ∀ a, (![0, 14, 0] : Fin 3 → Nat) a + S2x2000x26.size a ≤ S2x2018x26.size a
  inb_S2x2000x494_S2x2000x26_0_0_364 : ∀ a, (![0, 0, 364] : Fin 3 → Nat) a + S2x2000x26.size a ≤ S2x2000x494.size a
  inb_S2x2018x26_S2x2000x26_0_15_0 : ∀ a, (![0, 15, 0] : Fin 3 → Nat) a + S2x2000x26.size a ≤ S2x2018x26.size a
  inb_S2x2000x494_S2x2000x26_0_0_390 : ∀ a, (![0, 0, 390] : Fin 3 → Nat) a + S2x2000x26.size a ≤ S2x2000x494.size a
  inb_S2x2018x26_S2x2000x26_0_16_0 : ∀ a, (![0, 16, 0] : Fin 3 → Nat) a + S2x2000x26.size a ≤ S2x2018x26.size a
  inb_S2x2000x494_S2x2000x26_0_0_416 : ∀ a, (![0, 0, 416] : Fin 3 → Nat) a + S2x2000x26.size a ≤ S2x2000x494.size a
  inb_S2x2018x26_S2x2000x26_0_17_0 : ∀ a, (![0, 17, 0] : Fin 3 → Nat) a + S2x2000x26.size a ≤ S2x2018x26.size a
  inb_S2x2000x494_S2x2000x26_0_0_442 : ∀ a, (![0, 0, 442] : Fin 3 → Nat) a + S2x2000x26.size a ≤ S2x2000x494.size a
  inb_S2x2018x26_S2x2000x26_0_18_0 : ∀ a, (![0, 18, 0] : Fin 3 → Nat) a + S2x2000x26.size a ≤ S2x2018x26.size a
  inb_S2x2000x494_S2x2000x26_0_0_468 : ∀ a, (![0, 0, 468] : Fin 3 → Nat) a + S2x2000x26.size a ≤ S2x2000x494.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2018x26.size a ≤ S64x2018x26.size a
  hwx0_0 : ∀ i : grid0.Coords, EltTy.bits .f32 = 32 ∨ (Rect.block (s := S64x2018x26) S2x2018x26.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2000x494.size a ≤ S64x2000x494.size a
  hwx0_1 : ∀ i : grid0.Coords, EltTy.bits .f32 = 32 ∨ (Rect.block (s := S64x2000x494) S2x2000x494.size (cc0_transform_1 i) (hinb0_1 i)).WholeWords (EltTy.packing .f32)

variable [Facts₀]

abbrev win0_0 : Pipeline.Window sig grid0 :=
  Pipeline.Window.ofSpec (Memref.whole main_v0) S2x2018x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x2000x494.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2000x26 : Shape := ⟨3, ![64, 2000, 26]⟩
abbrev S_ : Shape := ⟨0, ![]⟩
abbrev S64x2018x26 : Shape := ⟨3, ![64, 2018, 26]⟩
abbrev S64x2000x416 : Shape := ⟨3, ![64, 2000, 416]⟩
abbrev S64x2000x78 : Shape := ⟨3, ![64, 2000, 78]⟩
abbrev S64x2000x494 : Shape := ⟨3, ![64, 2000, 494]⟩

abbrev nBuf : Space → Nat
  | .hbm => 26
  | .vmem => 0
  | .smem => 0
  | _ => 0

abbrev bufTy : (tb : Table) → Fin (tcTables nBuf tb) → BufTy
  | .hbm, ⟨0, _⟩ => ⟨S64x2000x26, .f32⟩
  | .hbm, ⟨1, _⟩ => ⟨S_, .i32⟩
  | .hbm, ⟨2, _⟩ => ⟨S_, .f32⟩
  | .hbm, ⟨3, _⟩ => ⟨S64x2018x26, .f32⟩
  | .hbm, ⟨4, _⟩ => ⟨S64x2000x26, .f32⟩
  | .hbm, ⟨5, _⟩ => ⟨S64x2000x26, .f32⟩
  | .hbm, ⟨6, _⟩ => ⟨S64x2000x26, .f32⟩
  | .hbm, ⟨7, _⟩ => ⟨S64x2000x26, .f32⟩
  | .hbm, ⟨8, _⟩ => ⟨S64x2000x26, .f32⟩
  | .hbm, ⟨9, _⟩ => ⟨S64x2000x26, .f32⟩
  | .hbm, ⟨10, _⟩ => ⟨S64x2000x26, .f32⟩
  | .hbm, ⟨11, _⟩ => ⟨S64x2000x26, .f32⟩
  | .hbm, ⟨12, _⟩ => ⟨S64x2000x26, .f32⟩
  | .hbm, ⟨13, _⟩ => ⟨S64x2000x26, .f32⟩
  | .hbm, ⟨14, _⟩ => ⟨S64x2000x26, .f32⟩
  | .hbm, ⟨15, _⟩ => ⟨S64x2000x26, .f32⟩
  | .hbm, ⟨16, _⟩ => ⟨S64x2000x26, .f32⟩
  | .hbm, ⟨17, _⟩ => ⟨S64x2000x26, .f32⟩
  | .hbm, ⟨18, _⟩ => ⟨S64x2000x26, .f32⟩
  | .hbm, ⟨19, _⟩ => ⟨S64x2000x26, .f32⟩
  | .hbm, ⟨20, _⟩ => ⟨S64x2000x26, .f32⟩
  | .hbm, ⟨21, _⟩ => ⟨S64x2000x26, .f32⟩
  | .hbm, ⟨22, _⟩ => ⟨S64x2000x26, .f32⟩
  | .hbm, ⟨23, _⟩ => ⟨S64x2000x416, .f32⟩
  | .hbm, ⟨24, _⟩ => ⟨S64x2000x78, .f32⟩
  | .hbm, ⟨25, _⟩ => ⟨S64x2000x494, .f32⟩
  | _, _ => ⟨S64x2000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]

class Facts₀ : Prop where
  pads_S64x2000x26_S64x2018x26_000_990_000 : S64x2000x26.Pads (![0, 9, 0] : Fin 3 → Nat) ![0, 9, 0] ![0, 0, 0] S64x2018x26
  h_S_ : 0 < S_.numel
  slices_S64x2018x26_S64x2000x26_0_0_0 : S64x2018x26.Slices ![0, 0, 0] S64x2000x26
  slices_S64x2018x26_S64x2000x26_0_1_0 : S64x2018x26.Slices ![0, 1, 0] S64x2000x26
  slices_S64x2018x26_S64x2000x26_0_2_0 : S64x2018x26.Slices ![0, 2, 0] S64x2000x26
  slices_S64x2018x26_S64x2000x26_0_3_0 : S64x2018x26.Slices ![0, 3, 0] S64x2000x26
  slices_S64x2018x26_S64x2000x26_0_4_0 : S64x2018x26.Slices ![0, 4, 0] S64x2000x26
  slices_S64x2018x26_S64x2000x26_0_5_0 : S64x2018x26.Slices ![0, 5, 0] S64x2000x26
  slices_S64x2018x26_S64x2000x26_0_6_0 : S64x2018x26.Slices ![0, 6, 0] S64x2000x26
  slices_S64x2018x26_S64x2000x26_0_7_0 : S64x2018x26.Slices ![0, 7, 0] S64x2000x26
  slices_S64x2018x26_S64x2000x26_0_8_0 : S64x2018x26.Slices ![0, 8, 0] S64x2000x26
  slices_S64x2018x26_S64x2000x26_0_9_0 : S64x2018x26.Slices ![0, 9, 0] S64x2000x26
  slices_S64x2018x26_S64x2000x26_0_10_0 : S64x2018x26.Slices ![0, 10, 0] S64x2000x26
  slices_S64x2018x26_S64x2000x26_0_11_0 : S64x2018x26.Slices ![0, 11, 0] S64x2000x26
  slices_S64x2018x26_S64x2000x26_0_12_0 : S64x2018x26.Slices ![0, 12, 0] S64x2000x26
  slices_S64x2018x26_S64x2000x26_0_13_0 : S64x2018x26.Slices ![0, 13, 0] S64x2000x26
  slices_S64x2018x26_S64x2000x26_0_14_0 : S64x2018x26.Slices ![0, 14, 0] S64x2000x26
  slices_S64x2018x26_S64x2000x26_0_15_0 : S64x2018x26.Slices ![0, 15, 0] S64x2000x26
  slices_S64x2018x26_S64x2000x26_0_16_0 : S64x2018x26.Slices ![0, 16, 0] S64x2000x26
  slices_S64x2018x26_S64x2000x26_0_17_0 : S64x2018x26.Slices ![0, 17, 0] S64x2000x26
  slices_S64x2018x26_S64x2000x26_0_18_0 : S64x2018x26.Slices ![0, 18, 0] S64x2000x26
  concatenates_S64x2000x26_S64x2000x26_S64x2000x26_S64x2000x26_S64x2000x26_S64x2000x26_S64x2000x26_S64x2000x26_S64x2000x26_S64x2000x26_S64x2000x26_S64x2000x26_S64x2000x26_S64x2000x26_S64x2000x26_S64x2000x26_S64x2000x416_d2 : Shape.Concatenates [S64x2000x26, S64x2000x26, S64x2000x26, S64x2000x26, S64x2000x26, S64x2000x26, S64x2000x26, S64x2000x26, S64x2000x26, S64x2000x26, S64x2000x26, S64x2000x26, S64x2000x26, S64x2000x26, S64x2000x26, S64x2000x26] S64x2000x416 2
  concatenates_S64x2000x26_S64x2000x26_S64x2000x26_S64x2000x78_d2 : Shape.Concatenates [S64x2000x26, S64x2000x26, S64x2000x26] S64x2000x78 2
  concatenates_S64x2000x416_S64x2000x78_S64x2000x494_d2 : Shape.Concatenates [S64x2000x416, S64x2000x78] S64x2000x494 2

variable [Facts₀]

class Facts : Prop extends Facts₀ where

variable [Facts]
-- ==== Proof.Frames.lean ====
/-
  Stacking context frames. A signal of 26 channels over 2000 time steps, padded to 2018 steps, is turned into
  rows of 494 = 19 · 26 columns: column `j` of row `t` is channel `j % 26` of the padded signal at step
  `t + j / 26` — the 19 steps around `t`, nine on each side, laid next to one another. `stack` is that map, for
  any number of batch entries (the whole arrays have 64, one pipeline block has 2) and any element type: it only
  moves elements.

  The host computes it as nineteen slices of the padded array, each the array advanced by `w` steps
  (`w = 0 … 18`), joined along the last axis in three concatenations: sixteen slices, then three, then the two
  results. `host_eq_stack` reads that term index by index: the column's position `j` decides the side of the last
  concatenation (`j < 416 = 16 · 26` or not), the slice within it (`j / 26`, less 16 on the right) and the channel
  (`j % 26`).
-/
import Idealize.ShloMosaic.Lib.ValueIdx
import Idealize.ShloMosaic.Lib.ValueLayout
import Idealize.ShloMosaic.Lib.Pipeline.Value

noncomputable section

namespace Cert.Frames

open Idealize.ShloMosaic Idealize.ShloMosaic.ValueIdx

variable {α : Type}

/-- The padded signals, the result, one slice, and the two partial joins. -/
abbrev Spad : Shape := ⟨3, ![64, 2018, 26]⟩
abbrev Sout : Shape := ⟨3, ![64, 2000, 494]⟩
abbrev S26 : Shape := ⟨3, ![64, 2000, 26]⟩
abbrev S416 : Shape := ⟨3, ![64, 2000, 416]⟩
abbrev S78 : Shape := ⟨3, ![64, 2000, 78]⟩

/-- Row `t`, column `j` of the stacked frames: channel `j % 26` of the padded signal at step `t + j / 26`. -/
def stack {B : Nat} (xp : (⟨3, ![B, 2018, 26]⟩ : Shape).Idx → α) : (⟨3, ![B, 2000, 494]⟩ : Shape).Idx → α :=
  fun j => xp (ix3 (⟨(j 0).val, (j 0).isLt⟩ : Fin B)
    (⟨(j 1).val + (j 2).val / 26, by
      have h1 : (j 1).val < 2000 := (j 1).isLt
      have h2 : (j 2).val < 494 := (j 2).isLt
      omega⟩ : Fin 2018)
    (⟨(j 2).val % 26, Nat.mod_lt _ (by decide)⟩ : Fin 26))

/-- `stack` at an index given by its coordinates. -/
theorem stack_apply {B : Nat} (xp : (⟨3, ![B, 2018, 26]⟩ : Shape).Idx → α) (b : Fin B) (t : Fin 2000) (j : Fin 494)
    (s : Fin 2018) (hs : s.val = t.val + j.val / 26) (q : Fin 26) (hq : q.val = j.val % 26) :
    stack xp (ix3 b t j) = xp (ix3 b s q) := by
  unfold stack
  exact congrArg xp (funext fun a => match a with
    | ⟨0, _⟩ => rfl
    | ⟨1, _⟩ => Fin.ext hs.symm
    | ⟨2, _⟩ => Fin.ext hq.symm)

/-- `stack` at any index, with the source index given by coordinate equations. -/
theorem stack_at {B : Nat} (xp : (⟨3, ![B, 2018, 26]⟩ : Shape).Idx → α) (i : (⟨3, ![B, 2000, 494]⟩ : Shape).Idx)
    (k : (⟨3, ![B, 2018, 26]⟩ : Shape).Idx) (h0 : (k 0).val = (i 0).val)
    (h1 : (k 1).val = (i 1).val + (i 2).val / 26) (h2 : (k 2).val = (i 2).val % 26) : stack xp i = xp k := by
  unfold stack
  exact congrArg xp (funext fun a => match a with
    | ⟨0, _⟩ => Fin.ext h0.symm
    | ⟨1, _⟩ => Fin.ext h1.symm
    | ⟨2, _⟩ => Fin.ext h2.symm)

/-- Stacking acts on each batch entry by itself: if `blk` holds the two batch entries `o`, `o + 1` of `xp`, then
    `stack blk` holds those two batch entries of `stack xp`. -/
theorem stack_block (xp : (⟨3, ![64, 2018, 26]⟩ : Shape).Idx → α) (blk : (⟨3, ![2, 2018, 26]⟩ : Shape).Idx → α) (o : Nat)
    (hblk : ∀ (y : (⟨3, ![2, 2018, 26]⟩ : Shape).Idx) (k : (⟨3, ![64, 2018, 26]⟩ : Shape).Idx),
      (k 0).val = o + (y 0).val → (k 1).val = (y 1).val → (k 2).val = (y 2).val → blk y = xp k)
    (j : (⟨3, ![2, 2000, 494]⟩ : Shape).Idx) (i : (⟨3, ![64, 2000, 494]⟩ : Shape).Idx)
    (h0 : (i 0).val = o + (j 0).val) (h1 : (i 1).val = (j 1).val) (h2 : (i 2).val = (j 2).val) :
    stack blk j = stack xp i := by
  have hi0 : (i 0).val < 64 := (i 0).isLt
  have hi1 : (i 1).val < 2000 := (i 1).isLt
  have hi2 : (i 2).val < 494 := (i 2).isLt
  refine Eq.trans ?_ (stack_at xp i (ix3 (⟨(i 0).val, hi0⟩ : Fin 64) (⟨(i 1).val + (i 2).val / 26, by omega⟩ : Fin 2018)
    (⟨(i 2).val % 26, Nat.mod_lt _ (by decide)⟩ : Fin 26)) rfl rfl rfl).symm
  show blk _ = _
  refine hblk _ _ h0 ?_ ?_
  · show (i 1).val + (i 2).val / 26 = (j 1).val + (j 2).val / 26
    rw [h1, h2]
  · show (i 2).val % 26 = (j 2).val % 26
    rw [h2]

/-! ## The host's three concatenations, read at an index -/

/-- Sixteen arrays of 26 columns joined along the columns: column `j` is column `j % 26` of array `j / 26`. -/
theorem concat16_apply (f : Fin 16 → (S26.Idx → α))
    (h : Shape.Concatenates (([⟨S26, f 0⟩, ⟨S26, f 1⟩, ⟨S26, f 2⟩, ⟨S26, f 3⟩, ⟨S26, f 4⟩, ⟨S26, f 5⟩, ⟨S26, f 6⟩, ⟨S26, f 7⟩, ⟨S26, f 8⟩, ⟨S26, f 9⟩, ⟨S26, f 10⟩, ⟨S26, f 11⟩, ⟨S26, f 12⟩, ⟨S26, f 13⟩, ⟨S26, f 14⟩, ⟨S26, f 15⟩] : List ((s : Shape) × (s.Idx → α))).map (·.1)) S416 2)
    (b : Fin 64) (t : Fin 2000) (j : Fin 416) (n : Fin 16) (hn : j.val / 26 = n.val) (q : Fin 26) (hq : q.val = j.val % 26) :
    concatenate S416 2 [⟨S26, f 0⟩, ⟨S26, f 1⟩, ⟨S26, f 2⟩, ⟨S26, f 3⟩, ⟨S26, f 4⟩, ⟨S26, f 5⟩, ⟨S26, f 6⟩, ⟨S26, f 7⟩, ⟨S26, f 8⟩, ⟨S26, f 9⟩, ⟨S26, f 10⟩, ⟨S26, f 11⟩, ⟨S26, f 12⟩, ⟨S26, f 13⟩, ⟨S26, f 14⟩, ⟨S26, f 15⟩] h (ix3 b t j) = f n (ix3 b t q) :=
  concatenate_ofFn_apply (t := S416) (s₁ := S26) 2 f h rfl 26 rfl (ix3 b t j) n hn (ix3 b t q) hq
    (fun ax => match ax with
      | ⟨0, _⟩ => fun _ => rfl
      | ⟨1, _⟩ => fun _ => rfl
      | ⟨2, _⟩ => fun hb => absurd rfl hb)

/-- Three arrays of 26 columns joined along the columns, likewise. -/
theorem concat3_apply (f : Fin 3 → (S26.Idx → α))
    (h : Shape.Concatenates (([⟨S26, f 0⟩, ⟨S26, f 1⟩, ⟨S26, f 2⟩] : List ((s : Shape) × (s.Idx → α))).map (·.1)) S78 2)
    (b : Fin 64) (t : Fin 2000) (j : Fin 78) (n : Fin 3) (hn : j.val / 26 = n.val) (q : Fin 26) (hq : q.val = j.val % 26) :
    concatenate S78 2 [⟨S26, f 0⟩, ⟨S26, f 1⟩, ⟨S26, f 2⟩] h (ix3 b t j) = f n (ix3 b t q) :=
  concatenate_ofFn_apply (t := S78) (s₁ := S26) 2 f h rfl 26 rfl (ix3 b t j) n hn (ix3 b t q) hq
    (fun ax => match ax with
      | ⟨0, _⟩ => fun _ => rfl
      | ⟨1, _⟩ => fun _ => rfl
      | ⟨2, _⟩ => fun hb => absurd rfl hb)

/-! ## The host's term is `stack` -/

/-- The nineteen slices of the padded array joined sixteen, three, then two: `stack` of the padded array. -/
theorem host_eq_stack (xp : Spad.Idx → α) (hs : ∀ w : Nat, w ≤ 18 → Spad.Slices ![0, w, 0] S26)
    (h16 : Shape.Concatenates [S26, S26, S26, S26, S26, S26, S26, S26, S26, S26, S26, S26, S26, S26, S26, S26] S416 2)
    (h3 : Shape.Concatenates [S26, S26, S26] S78 2) (h2 : Shape.Concatenates [S416, S78] Sout 2) :
    concatenate Sout 2
      [⟨S416, concatenate S416 2 [⟨S26, extractStridedSlice S26 ![0, 0, 0] xp (hs 0 (by decide))⟩,
        ⟨S26, extractStridedSlice S26 ![0, 1, 0] xp (hs 1 (by decide))⟩,
        ⟨S26, extractStridedSlice S26 ![0, 2, 0] xp (hs 2 (by decide))⟩,
        ⟨S26, extractStridedSlice S26 ![0, 3, 0] xp (hs 3 (by decide))⟩,
        ⟨S26, extractStridedSlice S26 ![0, 4, 0] xp (hs 4 (by decide))⟩,
        ⟨S26, extractStridedSlice S26 ![0, 5, 0] xp (hs 5 (by decide))⟩,
        ⟨S26, extractStridedSlice S26 ![0, 6, 0] xp (hs 6 (by decide))⟩,
        ⟨S26, extractStridedSlice S26 ![0, 7, 0] xp (hs 7 (by decide))⟩,
        ⟨S26, extractStridedSlice S26 ![0, 8, 0] xp (hs 8 (by decide))⟩,
        ⟨S26, extractStridedSlice S26 ![0, 9, 0] xp (hs 9 (by decide))⟩,
        ⟨S26, extractStridedSlice S26 ![0, 10, 0] xp (hs 10 (by decide))⟩,
        ⟨S26, extractStridedSlice S26 ![0, 11, 0] xp (hs 11 (by decide))⟩,
        ⟨S26, extractStridedSlice S26 ![0, 12, 0] xp (hs 12 (by decide))⟩,
        ⟨S26, extractStridedSlice S26 ![0, 13, 0] xp (hs 13 (by decide))⟩,
        ⟨S26, extractStridedSlice S26 ![0, 14, 0] xp (hs 14 (by decide))⟩,
        ⟨S26, extractStridedSlice S26 ![0, 15, 0] xp (hs 15 (by decide))⟩] h16⟩,
       ⟨S78, concatenate S78 2 [⟨S26, extractStridedSlice S26 ![0, 16, 0] xp (hs 16 (by decide))⟩,
        ⟨S26, extractStridedSlice S26 ![0, 17, 0] xp (hs 17 (by decide))⟩,
        ⟨S26, extractStridedSlice S26 ![0, 18, 0] xp (hs 18 (by decide))⟩] h3⟩] h2
      = stack xp := by
  funext i
  obtain ⟨b, t, j, rfl⟩ : ∃ (b : Fin 64) (t : Fin 2000) (j : Fin 494), i = ix3 b t j := ⟨i 0, i 1, i 2, eq_ix3 i⟩
  have hj : j.val < 494 := j.isLt
  have ht : t.val < 2000 := t.isLt
  by_cases hlt : j.val < 416
  · -- the left join: slice `j / 26` of the first sixteen
    refine (concatenate_pair_apply_left 2 _ _ h2 (ix3 b t j) rfl (ix3 b t (⟨j.val, hlt⟩ : Fin 416))
      (fun ax => match ax with | ⟨0, _⟩ => rfl | ⟨1, _⟩ => rfl | ⟨2, _⟩ => rfl)).trans ?_
    refine (concat16_apply (fun n : Fin 16 => extractStridedSlice S26 ![0, n.val, 0] xp (hs n.val (by omega))) h16
      b t ⟨j.val, hlt⟩ ⟨j.val / 26, by omega⟩ rfl ⟨j.val % 26, Nat.mod_lt _ (by decide)⟩ rfl).trans ?_
    refine (slice3_axis1_apply (j.val / 26) xp _ b t ⟨j.val % 26, Nat.mod_lt _ (by decide)⟩
      ⟨t.val + j.val / 26, by omega⟩ (Nat.add_comm _ _)).trans ?_
    exact (stack_apply xp b t j _ rfl _ rfl).symm
  · -- the right join: slice `16 + (j - 416) / 26`, one of the last three
    have hge : 416 ≤ j.val := Nat.le_of_not_lt hlt
    refine (concatenate_pair_apply_right 2 _ _ h2 (ix3 b t j) rfl rfl (ix3 b t (⟨j.val - 416, by omega⟩ : Fin 78))
      (fun ax => match ax with
        | ⟨0, _⟩ => fun _ => rfl
        | ⟨1, _⟩ => fun _ => rfl
        | ⟨2, _⟩ => fun hb => absurd rfl hb)
      (by show j.val - 416 + 416 = j.val; omega)).trans ?_
    refine (concat3_apply (fun n : Fin 3 => extractStridedSlice S26 ![0, 16 + n.val, 0] xp (hs (16 + n.val) (by omega))) h3
      b t ⟨j.val - 416, by omega⟩ ⟨(j.val - 416) / 26, by omega⟩ rfl ⟨j.val % 26, Nat.mod_lt _ (by decide)⟩
      (by show j.val % 26 = (j.val - 416) % 26; omega)).trans ?_
    refine (slice3_axis1_apply (16 + (j.val - 416) / 26) xp _ b t ⟨j.val % 26, Nat.mod_lt _ (by decide)⟩
      ⟨t.val + j.val / 26, by omega⟩ (by show t.val + j.val / 26 = 16 + (j.val - 416) / 26 + t.val; omega)).trans ?_
    exact (stack_apply xp b t j _ rfl _ rfl).symm

end Cert.Frames

end
-- ==== Proof.KernelBlock.lean ====
/-
  One grid point of the kernel. The body makes nineteen copies between its two staged blocks (two batch entries
  each): copy `w` (`w = 0 … 18`) takes steps `w … w + 1999` of the padded signal's block to columns
  `26 w … 26 w + 25` of the output block. The nineteen column bands tile the 494 columns, and in band `w` a column
  `26 w + e` (`e < 26`) has `(26 w + e) / 26 = w` and `(26 w + e) % 26 = e`: so what the body leaves in the output
  block is `Frames.stack` of the input block, whatever the values are (nothing is computed; the body's reshapes to
  the same shape are the identity).
-/
import proofs.«164550_j25666724560969_1_alg».proof.Proof.Gen.KernelIdeal.Frame
import proofs.«164550_j25666724560969_1_alg».proof.Proof.Frames
import Idealize.ShloMosaic.Lib.Pipeline.Value

noncomputable section

namespace Cert.KernelIdeal.Hand

open Cert.KernelIdeal Cert.KernelIdeal.Gen Idealize.ShloMosaic Idealize.ShloMosaic.ValueIdx

variable {F : FTy → Type} [FloatOps F]

/-- Copy `w`: the block read from step `w` on, stored at column `c = 26 w` on, agrees there with `stack` of the
    block. -/
theorem copy_eq (x0 : Vec F S2x2018x26 .f32) (w c : Nat) (hc : c = 26 * w)
    (hin : ∀ a, (![0, w, 0] : Fin 3 → Nat) a + S2x2000x26.size a ≤ S2x2018x26.size a)
    (hout : ∀ a, (![0, 0, c] : Fin 3 → Nat) a + S2x2000x26.size a ≤ S2x2000x494.size a)
    (hsc : S2x2000x26.ShapeCasts S2x2000x26) (x : S2x2000x26.Idx) :
    shapeCast S2x2000x26 (View.ld x0 (Rect.unit (s := S2x2018x26) ![0, w, 0] S2x2000x26.size hin)) hsc x
      = Cert.Frames.stack x0 ((Rect.unit (s := S2x2000x494) ![0, 0, c] S2x2000x26.size hout).emb x) := by
  have h2 : (x 2).val < 26 := (x 2).isLt
  refine (congrFun (shapeCast_self (s := S2x2000x26) _ hsc) x).trans ?_
  refine (Cert.Frames.stack_at x0 _ ((Rect.unit (s := S2x2018x26) ![0, w, 0] S2x2000x26.size hin).emb x) ?_ ?_ ?_).symm
  · show 0 + 1 * (x 0).val = 0 + 1 * (x 0).val
    rfl
  · show w + 1 * (x 1).val = (0 + 1 * (x 1).val) + (c + 1 * (x 2).val) / 26
    omega
  · show 0 + 1 * (x 2).val = (c + 1 * (x 2).val) % 26
    omega

/-- What the body leaves in the output block: `stack` of the input block. Each of the nineteen stored pieces is a
    band of `stack x0` (`copy_eq`), and the bands cover the block. -/
theorem block_eq (x0 : Vec F S2x2018x26 .f32) : out0_1 x0 = Cert.Frames.stack x0 := by
  funext y
  unfold out0_1
  refine View.canon_apply_of_pieces (Cert.Frames.stack x0) _ ?_ y
    (cover0_1 _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl
  all_goals (intro x; exact copy_eq x0 _ _ (by rfl) (by decide) (by decide) shapeCasts_S2x2000x26_S2x2000x26 x)

end Cert.KernelIdeal.Hand

end
-- ==== Proof.KernelArray.lean ====
/-
  From grid points to the whole result. The grid has 32 points; point `t` works on batch entries `2 t` and
  `2 t + 1`: its input block is those two entries of the padded signal (all 2018 steps, all 26 channels) and its
  output block those two entries of the result (all 2000 rows, all 494 columns). `Frames.stack` treats each batch
  entry by itself, so what point `t` writes back — `stack` of its input block — is block `t` of `stack` of the
  whole padded array; the 32 blocks cover the 64 batch entries (entry `b` lies in block `b / 2`), so the result
  array ends at `stack` of the padded array. The padded array itself is what the host operations in front of the
  kernel wrote: the argument padded by nine steps on each side with the converted integer zero.
-/
import proofs.«164550_j25666724560969_1_alg».proof.Proof.Gen.KernelIdeal.Value
import proofs.«164550_j25666724560969_1_alg».proof.Proof.KernelBlock
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-- The padded signal as the kernel's region finds it. -/
abbrev padded (c : Dev nD) : S64x2018x26.Idx → Elt F .f32 := V m c main_v0

/-- Both windows' block index at point `t` is `(t, 0, 0)`: two batch entries per point, the other axes whole. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input block at point `t` holds batch entries `2 t`, `2 t + 1` of the padded signal. -/
theorem iblk_apply (c : Dev nD) (t : Fin cfg0.N) (y : S2x2018x26.Idx) (k : S64x2018x26.Idx)
    (h0 : (k 0).val = t.val * 2 + (y 0).val) (h1 : (k 1).val = (y 1).val) (h2 : (k 2).val = (y 2).val) :
    (iblk m c 0 t : Vec F S2x2018x26 .f32) y = padded m c k := by
  obtain ⟨e0, e1, e2, -, -, -⟩ := idx_facts t
  unfold iblk
  rw [View.read_apply]
  show V m c main_v0 _ = V m c main_v0 _
  refine congrArg (V m c main_v0) (funext fun a => Fin.ext ?_)
  match a with
  | ⟨0, _⟩ =>
    show win0_0.index t (0 : Fin 3) * 2 + 1 * (y 0).val = (k 0).val
    rw [e0, h0]; omega
  | ⟨1, _⟩ =>
    show win0_0.index t (1 : Fin 3) * 2018 + 1 * (y 1).val = (k 1).val
    rw [e1, h1]; omega
  | ⟨2, _⟩ =>
    show win0_0.index t (2 : Fin 3) * 26 + 1 * (y 2).val = (k 2).val
    rw [e2, h2]; omega

/-- What point `t` writes back is block `t` of `stack` of the padded signal. -/
theorem flushed_eq (c : Dev nD) (t : Fin cfg0.N) :
    (dats m 0 c).flushed 1 t = ((cfg0.win 1).blk t).view.read (Elt F) (Cert.Frames.stack (padded m c)) := by
  rw [Cert.KernelIdeal.Value.flushed1, block_eq]
  obtain ⟨-, -, -, e0, e1, e2⟩ := idx_facts t
  funext j
  show Cert.Frames.stack (iblk m c 0 t : Vec F S2x2018x26 .f32) j
    = Cert.Frames.stack (padded m c) (((cfg0.win 1).blk t).view.emb j)
  refine Cert.Frames.stack_block (padded m c) (iblk m c 0 t : Vec F S2x2018x26 .f32) (t.val * 2)
    (fun y k h0 h1 h2 => iblk_apply m c t y k h0 h1 h2) j _ ?_ ?_ ?_
  · show win0_1.index t (0 : Fin 3) * 2 + 1 * (j 0).val = t.val * 2 + (j 0).val
    rw [e0]; omega
  · show win0_1.index t (1 : Fin 3) * 2000 + 1 * (j 1).val = (j 1).val
    rw [e1]; omega
  · show win0_1.index t (2 : Fin 3) * 494 + 1 * (j 2).val = (j 2).val
    rw [e2]; omega

/-- An index of the result array is in point `t`'s block iff each coordinate is in the block's range on its axis. -/
theorem mem_blk (t : Fin cfg0.N) (i : S64x2000x494.Idx) :
    i ∈ ((cfg0.win 1).blk t).view.set ↔ ∀ a : Fin 3, win0_1.index t a * S2x2000x494.size a ≤ (i a).val
      ∧ (i a).val < win0_1.index t a * S2x2000x494.size a + S2x2000x494.size a := by
  show i ∈ ((View.whole main_v1).slice (win0_1.rect t)).set ↔ _
  rw [View.set_slice_whole, Rect.mem_set_unit]
  exact Iff.rfl

/-- Every index of the result array lies in some point's block: batch entry `b` in block `b / 2`. -/
theorem covered (i : S64x2000x494.Idx) :
    ∃ t : Fin cfg0.N, (cfg0.win 1).flush t = true ∧ i ∈ ((cfg0.win 1).blk t).view.set := by
  have hi0 : (i 0).val < 64 := (i 0).isLt
  have hi1 : (i 1).val < 2000 := (i 1).isLt
  have hi2 : (i 2).val < 494 := (i 2).isLt
  have hN : cfg0.N = 32 := N_0
  obtain ⟨t, ht⟩ : ∃ t : Fin cfg0.N, t.val = (i 0).val / 2 := ⟨⟨(i 0).val / 2, by rw [hN]; omega⟩, rfl⟩
  obtain ⟨-, -, -, e0, e1, e2⟩ := idx_facts t
  refine ⟨t, flush0_1 t, ?_⟩
  rw [mem_blk]
  intro a
  match a with
  | ⟨0, _⟩ =>
    show win0_1.index t (0 : Fin 3) * 2 ≤ (i 0).val ∧ (i 0).val < win0_1.index t (0 : Fin 3) * 2 + 2
    rw [e0, ht]; omega
  | ⟨1, _⟩ =>
    show win0_1.index t (1 : Fin 3) * 2000 ≤ (i 1).val ∧ (i 1).val < win0_1.index t (1 : Fin 3) * 2000 + 2000
    rw [e1]; omega
  | ⟨2, _⟩ =>
    show win0_1.index t (2 : Fin 3) * 494 ≤ (i 2).val ∧ (i 2).val < win0_1.index t (2 : Fin 3) * 494 + 494
    rw [e2]; omega

/-- The result array after the run: `stack` of the padded signal. -/
theorem final (c : Dev nD) : (dats m 0 c).arrAt 1 cfg0.N = Cert.Frames.stack (padded m c) :=
  (dats m 0 c).arrAt_eq_of_cover 1 (Cert.Frames.stack (padded m c)) (fun t _ => flushed_eq m c t) covered

/-- The padded signal is the argument padded by nine steps on each side with the converted integer zero: the three
    host operations in front of the kernel, read back. -/
theorem padded_eq (c : Dev nD) :
    padded m c = pad S64x2018x26 ![0, 9, 0] ![0, 9, 0] ![0, 0, 0] (m ((c : Thread nD τ).loc main_arg0))
      (sitofp .f32 (constantI S_ 32 0#32)) pads_S64x2000x26_S64x2018x26_000_990_000 h_S_ := by
  show V m c main_v0 = _
  dsimp only [V]
  simp only [hostOps0, hostOps0_1, List.flatten_cons, List.flatten_nil, List.append_nil, List.cons_append,
    List.nil_append]
  after_results
  rfl

/-- The kernel's run, read: the result array at `stack` of the padded argument, the argument unchanged. -/
theorem run : θ_run defs (onTc (τ := τ) (main (F := F))) ⟨m, fun _ => 0, ρ⟩ fun r => ∀ c : Dev nD,
      r.2.mem ((c : Thread nD τ).loc main_v1)
        = Cert.Frames.stack (pad S64x2018x26 ![0, 9, 0] ![0, 9, 0] ![0, 0, 0] (m ((c : Thread nD τ).loc main_arg0))
            (sitofp .f32 (constantI S_ 32 0#32)) pads_S64x2000x26_S64x2018x26_000_990_000 h_S_)
      ∧ r.2.mem ((c : Thread nD τ).loc main_arg0) = m ((c : Thread nD τ).loc main_arg0) :=
  (θ_run defs _ _).mono (fun _ h c => ⟨(h c).1.trans ((final m c).trans (congrArg Cert.Frames.stack (padded_eq m c))), (h c).2⟩)
    (Cert.KernelIdeal.Value.run_blocks m ρ)

end Cert.KernelIdeal.Hand

end
-- ==== Proof.lean ====
/-
  The certificate. Kernel and reference both pad the argument by nine time steps on each side with the same value
  (the integer zero converted to a float: one term on both sides, never evaluated) and then lay, for every time step,
  the 19 padded steps around it next to one another: `out[b, t, 26 w + e] = padded[b, t + w, e]`
  (`Frames.stack`). The kernel does it block by block, two batch entries per grid point, nineteen copies per point
  (KernelBlock.lean, KernelArray.lean); the reference as nineteen slices joined by three concatenations
  (`Frames.host_eq_stack`). Elements are only moved, so the two results are equal for every input and the
  precondition is not used. The idealization rewrote nothing, so `preserves` is trivial; the kernels' frames are the
  generated ones, the reference's frame is its run with the result dropped.
-/
import proofs.«164550_j25666724560969_1_alg».proof.Defs
import proofs.«164550_j25666724560969_1_alg».proof.Proof.Gen.Kernel
import proofs.«164550_j25666724560969_1_alg».proof.Proof.Gen.Kernel.Skeleton
import proofs.«164550_j25666724560969_1_alg».proof.Proof.Gen.Kernel.Launch
import proofs.«164550_j25666724560969_1_alg».proof.Proof.Gen.Kernel.Points
import proofs.«164550_j25666724560969_1_alg».proof.Proof.Gen.Kernel.Frame
import proofs.«164550_j25666724560969_1_alg».proof.Proof.Gen.KernelIdeal
import proofs.«164550_j25666724560969_1_alg».proof.Proof.Gen.KernelIdeal.Skeleton
import proofs.«164550_j25666724560969_1_alg».proof.Proof.Gen.KernelIdeal.Launch
import proofs.«164550_j25666724560969_1_alg».proof.Proof.Gen.KernelIdeal.Points
import proofs.«164550_j25666724560969_1_alg».proof.Proof.Gen.KernelIdeal.Frame
import proofs.«164550_j25666724560969_1_alg».proof.Proof.Gen.ReferenceIdeal
import proofs.«164550_j25666724560969_1_alg».proof.Proof.Gen.Pre_finite_inputs
import proofs.«164550_j25666724560969_1_alg».proof.Proof.Gen.KernelIdeal.Value
import proofs.«164550_j25666724560969_1_alg».proof.Proof.Gen.ReferenceIdeal.Run
import proofs.«164550_j25666724560969_1_alg».proof.Proof.Frames
import proofs.«164550_j25666724560969_1_alg».proof.Proof.KernelArray
import Idealize.ShloMosaic.Adequacy
import Idealize.ShloMosaic.Init

noncomputable section

namespace Cert.Proof

open Idealize.ShloMosaic Idealize.ShloMosaic.TcCoe Idealize.SL.Sem

/-- Advancing the padded signal by at most 18 steps keeps 2000 steps inside its 2018. -/
theorem slices_of_le (w : Nat) (hw : w ≤ 18) : Cert.Frames.Spad.Slices ![0, w, 0] Cert.Frames.S26 :=
  ⟨rfl, fun a => match a with
    | ⟨0, _⟩ => by show 0 + 64 ≤ 64; omega
    | ⟨1, _⟩ => by show w + 2000 ≤ 2018; omega
    | ⟨2, _⟩ => by show 0 + 26 ≤ 26; omega⟩

theorem frame_kernel : Cert.frame_Kernel := fun m ρ _ => Cert.Kernel.Gen.frame m ρ

theorem frame_kernelIdeal : Cert.frame_KernelIdeal := fun m ρ _ => Cert.KernelIdeal.Gen.frame m ρ

/-- The reference's run leaves its argument as it was. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the idealized reading. -/
theorem preserves : Cert.preserves_Kernel_KernelIdeal := trivial

/-- Both programs end with `stack` of the padded argument in their result. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  unfold Cert.ReferenceIdeal.Value.res_main_v22
  rw [hagree c]
  exact Cert.Frames.host_eq_stack _ slices_of_le _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
